-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S11008x4096 : Shape := ⟨2, ![11008, 4096]⟩
abbrev S4096x11008 : Shape := ⟨2, ![4096, 11008]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_

variable [Facts]

def fn_part1 {F : FTy → Type} [FloatOps F] (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  main_v18

def fn {F : FTy → Type} [FloatOps F] (main_arg0 : FVec F S8192x4096 .f32) (main_arg1 : FVec F S11008x4096 .f32) (main_arg2 : FVec F S11008x4096 .f32) (main_arg3 : FVec F S4096x11008 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_v13 main_v16
-- ==== Kernel.lean ====
abbrev S8192x4096 : Shape := ⟨2, ![8192, 4096]⟩
abbrev S11008x4096 : Shape := ⟨2, ![11008, 4096]⟩
abbrev S4096x11008 : Shape := ⟨2, ![4096, 11008]⟩
abbrev S512x4096 : Shape := ⟨2, ![512, 4096]⟩
abbrev S256x4096 : Shape := ⟨2, ![256, 4096]⟩
abbrev S4096x256 : Shape := ⟨2, ![4096, 256]⟩
abbrev S512x256 : Shape := ⟨2, ![512, 256]⟩

abbrev nBuf : Space → Nat
  | .hbm => 9
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S8192x4096, .bf16⟩
  | .hbm, ⟨5, _⟩ => ⟨S11008x4096, .bf16⟩
  | .hbm, ⟨6, _⟩ => ⟨S11008x4096, .bf16⟩
  | .hbm, ⟨7, _⟩ => ⟨S4096x11008, .bf16⟩
  | .hbm, ⟨8, _⟩ => ⟨S8192x4096, .f32⟩
  | .local _ .vmem, ⟨0, _⟩ => ⟨S512x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S4096x256, .bf16⟩
  | .local _ .vmem, ⟨6, _⟩ => ⟨S4096x256, .bf16⟩
  | .local _ .vmem, ⟨7, _⟩ => ⟨S512x4096, .f32⟩
  | .local _ .vmem, ⟨8, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![16, 43], ![false, false]⟩

def k0_cond2 (i : grid0.Coords) : BitVec 1 :=
  let arg1 : BitVec 32 := BitVec.ofNat 32 (i 1).val
  let c42_i32 : BitVec 32 := 42#32
  let v23 : BitVec 1 := Scalar.cmpi .eq arg1 c42_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S512x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  dot_S512x4096_S256x4096_S512x256_1_1_0_0_n_n_wf : DotDims.WF S512x4096 S256x4096 S512x256 [1] [1] [0] [0] [] []
  dot_S512x256_S4096x256_S512x4096_1_1_0_0_n_n_wf : DotDims.WF S512x256 S4096x256 S512x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x11008.size a
  hwx0_3 : ∀ i : grid0.Coords, EltTy.bits .bf16 = 32 ∨ (Rect.block (s := S4096x11008) S4096x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S8192x4096.size a
  hwx0_4 : ∀ i : grid0.Coords, EltTy.bits .f32 = 32 ∨ (Rect.block (s := S8192x4096) S512x4096.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf

abbrev win0_0 : Pipeline.Window sig grid0 :=
  Pipeline.Window.ofSpec (Memref.whole main_v0) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x4096.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S11008x4096 : Shape := ⟨2, ![11008, 4096]⟩
abbrev S4096x11008 : Shape := ⟨2, ![4096, 11008]⟩
abbrev S8192x11008 : Shape := ⟨2, ![8192, 11008]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S4096x11008, .f32⟩
  | .hbm, ⟨5, _⟩ => ⟨S8192x11008, .f32⟩
  | .hbm, ⟨6, _⟩ => ⟨S4096x11008, .f32⟩
  | .hbm, ⟨7, _⟩ => ⟨S8192x11008, .f32⟩
  | .hbm, ⟨8, _⟩ => ⟨S8192x11008, .f32⟩
  | .hbm, ⟨9, _⟩ => ⟨S8192x11008, .f32⟩
  | .hbm, ⟨10, _⟩ => ⟨S_, .f32⟩
  | .hbm, ⟨11, _⟩ => ⟨S8192x11008, .f32⟩
  | .hbm, ⟨12, _⟩ => ⟨S8192x11008, .f32⟩
  | .hbm, ⟨13, _⟩ => ⟨S_, .f32⟩
  | .hbm, ⟨14, _⟩ => ⟨S8192x11008, .f32⟩
  | .hbm, ⟨15, _⟩ => ⟨S8192x11008, .f32⟩
  | .hbm, ⟨16, _⟩ => ⟨S8192x11008, .f32⟩
  | .hbm, ⟨17, _⟩ => ⟨S8192x11008, .f32⟩
  | .hbm, ⟨18, _⟩ => ⟨S11008x4096, .f32⟩
  | .hbm, ⟨19, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]

class Facts₀ : Prop where
  transposes_S11008x4096_S4096x11008_1_0 : S11008x4096.Transposes [1, 0] S4096x11008
  bcast_S_S8192x11008 : S_.BroadcastsInDim S8192x11008 (![] : Fin 0 → Fin S8192x11008.rank)
  transposes_S4096x11008_S11008x4096_1_0 : S4096x11008.Transposes [1, 0] S11008x4096
  dot_S8192x4096_S4096x11008_S8192x11008_1_0_0_1_n_n_wf : DotDims.WF S8192x4096 S4096x11008 S8192x11008 [1] [0] [0] [1] [] []
  dot_S8192x11008_S11008x4096_S8192x4096_1_0_0_1_n_n_wf : DotDims.WF S8192x11008 S11008x4096 S8192x4096 [1] [0] [0] [1] [] []

variable [Facts₀]

def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf
def dot_S8192x11008_S11008x4096_S8192x4096_1_0_0_1_n_n : DotDims S8192x11008 S11008x4096 S8192x4096 where
  lhsContracting := [1]
  rhsContracting := [0]
  lhsNonContracting := [0]
  rhsNonContracting := [1]
  lhsBatch := []
  rhsBatch := []
  wf := dot_S8192x11008_S11008x4096_S8192x4096_1_0_0_1_n_n_wf

class Facts : Prop extends Facts₀ where

variable [Facts]
-- ==== Proof.SwigluSum.lean ====
/-
  The gated feed-forward layer as one function of its four arrays, and the regrouping of its last sum.

  For a token row `r`, an intermediate feature `n` and an output feature `h`:
    gate r n = ∑ d, X[r,d] · Wg[n,d]      up r n = ∑ d, X[r,d] · Wu[n,d]
    summand r h n = ((gate r n · σ(gate r n)) · up r n) · Wd[h,n]
    out r h = ∑ n, summand r h n                         (n over all 11008 features)
  where σ x = 1 / (1 + e^(-x)) is the logistic function on the extended reals.

  The 11008 features split into 43 consecutive tiles of 256. Summing tile by tile — the running total after `K`
  tiles, `upto` — reaches the same value after 43 tiles: addition on the extended reals is commutative and
  associative, so regrouping a finite sum needs no finiteness of the entries.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.Swiglu

open Idealize.ShloMosaic Idealize.ShloMosaic.ValueIdx

/-- The activations' shape, tokens × model width. -/
abbrev SX : Shape := ⟨2, ![8192, 4096]⟩
/-- The gate and up weights' shape, intermediate features × model width. -/
abbrev SW : Shape := ⟨2, ![11008, 4096]⟩
/-- The down weight's shape, model width × intermediate features. -/
abbrev SD : Shape := ⟨2, ![4096, 11008]⟩

/-- A natural number as a token row, an output feature, an intermediate feature: reduced modulo the extent, so
    that a sum over tiles can be written over plain naturals (inside the extent the reduction changes nothing). -/
abbrev tok (n : ℕ) : Fin 8192 := ⟨n % 8192, Nat.mod_lt _ (by norm_num)⟩
abbrev feat (n : ℕ) : Fin 4096 := ⟨n % 4096, Nat.mod_lt _ (by norm_num)⟩
abbrev mid (n : ℕ) : Fin 11008 := ⟨n % 11008, Nat.mod_lt _ (by norm_num)⟩

variable (X : SX.Idx → EReal) (Wg Wu : SW.Idx → EReal) (Wd : SD.Idx → EReal)

/-- A projection of token `r` onto intermediate feature `n`: the dot product of row `r` of `X` with row `n` of `W`. -/
def proj (W : SW.Idx → EReal) (r : Fin 8192) (n : Fin 11008) : EReal :=
  ∑ d : Fin 4096, X (ix2 r d) * W (ix2 n d)

/-- The gated hidden activation: `(g · σ(g)) · u` of the gate and up projections. -/
def gated (r : Fin 8192) (n : Fin 11008) : EReal :=
  (proj X Wg r n * Ideal.logistic (proj X Wg r n)) * proj X Wu r n

/-- One summand of the down projection. -/
def summand (r : Fin 8192) (h : Fin 4096) (n : Fin 11008) : EReal :=
  gated X Wg Wu r n * Wd (ix2 h n)

/-- The layer's output. -/
def out : SX.Idx → EReal := fun i => ∑ n : Fin 11008, summand X Wg Wu Wd (i 0) (i 1) n

/-- The contribution of tile `k`: features `256 k … 256 k + 255`. -/
def tile (r : Fin 8192) (h : Fin 4096) (k : ℕ) : EReal :=
  ∑ j : Fin 256, summand X Wg Wu Wd r h (mid (256 * k + j.val))

/-- The running total after the first `K` tiles. -/
def upto (r : Fin 8192) (h : Fin 4096) (K : ℕ) : EReal :=
  ∑ k ∈ Finset.range K, tile X Wg Wu Wd r h k

theorem upto_zero (r : Fin 8192) (h : Fin 4096) : upto X Wg Wu Wd r h 0 = 0 := by
  unfold upto; exact Finset.sum_range_zero _

theorem upto_succ (r : Fin 8192) (h : Fin 4096) (K : ℕ) :
    upto X Wg Wu Wd r h (K + 1) = upto X Wg Wu Wd r h K + tile X Wg Wu Wd r h K := by
  unfold upto; exact Finset.sum_range_succ _ _

/-- A sum over 43 tiles of 256 is the sum over all 11008 indices. -/
theorem sum_tiles {M : Type*} [AddCommMonoid M] (T : Fin 11008 → M) :
    ∑ k ∈ Finset.range 43, ∑ j : Fin 256, T (mid (256 * k + j.val)) = ∑ n, T n := by
  rw [Finset.sum_range (fun k => ∑ j : Fin 256, T (mid (256 * k + j.val)))]
  rw [← Fintype.sum_prod_type' (f := fun (k : Fin 43) (j : Fin 256) => T (mid (256 * k.val + j.val)))]
  let e : Fin 43 × Fin 256 ≃ Fin 11008 := finProdFinEquiv.trans (finCongr (by norm_num))
  rw [← Equiv.sum_comp e T]
  refine Finset.sum_congr rfl fun x _ => congrArg T (Fin.ext ?_)
  have h1 := x.1.isLt
  have h2 := x.2.isLt
  show (256 * x.1.val + x.2.val) % 11008 = x.2.val + 256 * x.1.val
  omega

/-- After all 43 tiles the running total is the layer's output. -/
theorem upto_full (r : Fin 8192) (h : Fin 4096) : upto X Wg Wu Wd r h 43 = out X Wg Wu Wd (ix2 r h) := by
  unfold upto tile out
  exact sum_tiles (fun n => summand X Wg Wu Wd r h n)

end Cert.Swiglu

end
-- ==== Proof.KernelPieces.lean ====
import proofs.«161062_j71528385347979_1_alg».proof.Proof.Gen.KernelIdeal.Value
import proofs.«161062_j71528385347979_1_alg».proof.Proof.SwigluSum
import Idealize.ShloMosaic.Lib.Pipeline.Value
import Idealize.ShloMosaic.Lib.Tactic
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

/-! ## What one grid step leaves in the accumulator and in the output block

  The body at a grid step loads the token block `x`, the gate, up and down weight tiles, and stores
  `acc + (silu(x·wgᵀ) ∘ (x·wuᵀ))·wdᵀ` into the accumulator, where `acc` is the zero block at the first tile of a row
  block and what the step before left otherwise; at the last tile the output block receives the accumulator's new
  contents. Each lemma reads the stores the run found back as that one payload term. -/

namespace Cert.KernelIdeal.Tile
open Cert.KernelIdeal Cert.KernelIdeal.Gen
variable {F : FTy → Type} [FloatOps F]

theorem hz : (![0, 0] : Fin 2 → Nat) = fun _ => 0 := funext fun a => by fin_cases a <;> rfl

/-- First tile of a row block: the accumulator is reset to zero, read back, and left at `0 + tile`. -/
theorem scratch_A (c : Dev nD) (i : grid0.Coords) (a2 : Memref sig .tc .vmem S512x4096 .bf16) (h2 : a2.IsWhole) (a3 : Memref sig .tc .vmem S256x4096 .bf16) (h3 : a3.IsWhole) (a4 : Memref sig .tc .vmem S256x4096 .bf16) (h4 : a4.IsWhole) (a5 : Memref sig .tc .vmem S4096x256 .bf16) (h5 : a5.IsWhole) (a6 : Memref sig .tc .vmem S512x4096 .f32) (h6 : a6.IsWhole) (a7 : Memref sig .tc .vmem S512x4096 .f32) (h7 : a7.IsWhole) (hc0 : cond0_0 i) (hc1 : ¬cond0_1 i)
    (x0 : Vec F S512x4096 .bf16) (x1 : Vec F S256x4096 .bf16) (x2 : Vec F S256x4096 .bf16) (x3 : Vec F S4096x256 .bf16) :
    sout0_A_0 c i a2 h2 a3 h3 a4 h4 a5 h5 a6 h6 a7 h7 hc0 hc1 x0 x1 x2 x3 = k0_pay2 x0 x1 x2 x3 (k0_pay1 (F := F)) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S512x4096) hz, View.readCov_unit_zero (S := S512x4096) _ hz]
  simp only [View.readAt_eq_ld, h2.read_unread, h3.read_unread, h4.read_unread, h5.read_unread, h7.read_unread,
    View.ld_unit_zero (S := S512x4096) hz, View.ld_unit_zero (S := S256x4096) hz, View.ld_unit_zero (S := S4096x256) hz]

/-- A middle tile: the accumulator, holding `acc`, is left at `acc + tile`. -/
theorem scratch_B (c : Dev nD) (i : grid0.Coords) (a2 : Memref sig .tc .vmem S512x4096 .bf16) (h2 : a2.IsWhole) (a3 : Memref sig .tc .vmem S256x4096 .bf16) (h3 : a3.IsWhole) (a4 : Memref sig .tc .vmem S256x4096 .bf16) (h4 : a4.IsWhole) (a5 : Memref sig .tc .vmem S4096x256 .bf16) (h5 : a5.IsWhole) (a6 : Memref sig .tc .vmem S512x4096 .f32) (h6 : a6.IsWhole) (a7 : Memref sig .tc .vmem S512x4096 .f32) (h7 : a7.IsWhole) (hc0 : ¬cond0_0 i) (hc1 : ¬cond0_1 i)
    (x0 : Vec F S512x4096 .bf16) (x1 : Vec F S256x4096 .bf16) (x2 : Vec F S256x4096 .bf16) (x3 : Vec F S4096x256 .bf16) (acc : Vec F S512x4096 .f32) :
    sout0_B_0 c i a2 h2 a3 h3 a4 h4 a5 h5 a6 h6 a7 h7 hc0 hc1 x0 x1 x2 x3 acc = k0_pay2 x0 x1 x2 x3 acc := by
  unfold sout0_B_0
  rw [View.read_writes_eq_canon _ _ _ (scover0_B_0 c i a2 h2 a3 h3 a4 h4 a5 h5 a6 h6 a7 h7 hc0 hc1 x0 x1 x2 x3 acc)]
  unfold kernelRun0_B
  dsimp only
  sl_unfold_words
  rw [View.canon_unit_zero hz]
  simp only [View.readAt_eq_ld, h2.read_unread, h3.read_unread, h4.read_unread, h5.read_unread, h7.read_unread,
    View.ld_unit_zero (S := S512x4096) hz, View.ld_unit_zero (S := S256x4096) hz, View.ld_unit_zero (S := S4096x256) hz]

/-- The last tile: the accumulator likewise, -/
theorem scratch_C (c : Dev nD) (i : grid0.Coords) (a2 : Memref sig .tc .vmem S512x4096 .bf16) (h2 : a2.IsWhole) (a3 : Memref sig .tc .vmem S256x4096 .bf16) (h3 : a3.IsWhole) (a4 : Memref sig .tc .vmem S256x4096 .bf16) (h4 : a4.IsWhole) (a5 : Memref sig .tc .vmem S4096x256 .bf16) (h5 : a5.IsWhole) (a6 : Memref sig .tc .vmem S512x4096 .f32) (h6 : a6.IsWhole) (a7 : Memref sig .tc .vmem S512x4096 .f32) (h7 : a7.IsWhole) (hc0 : ¬cond0_0 i) (hc1 : cond0_1 i)
    (x0 : Vec F S512x4096 .bf16) (x1 : Vec F S256x4096 .bf16) (x2 : Vec F S256x4096 .bf16) (x3 : Vec F S4096x256 .bf16) (acc : Vec F S512x4096 .f32) :
    sout0_C_0 c i a2 h2 a3 h3 a4 h4 a5 h5 a6 h6 a7 h7 hc0 hc1 x0 x1 x2 x3 acc = k0_pay2 x0 x1 x2 x3 acc := by
  unfold sout0_C_0
  rw [View.read_writes_eq_canon _ _ _ (scover0_C_0 c i a2 h2 a3 h3 a4 h4 a5 h5 a6 h6 a7 h7 hc0 hc1 x0 x1 x2 x3 acc)]
  unfold kernelRun0_C
  dsimp only
  sl_unfold_words
  rw [View.canon_unit_zero hz]
  simp only [View.readAt_eq_ld, h2.read_unread, h3.read_unread, h4.read_unread, h5.read_unread, h7.read_unread,
    View.ld_unit_zero (S := S512x4096) hz, View.ld_unit_zero (S := S256x4096) hz, View.ld_unit_zero (S := S4096x256) hz]

/-- and the output block receives the same contents. -/
theorem out_C (c : Dev nD) (i : grid0.Coords) (a2 : Memref sig .tc .vmem S512x4096 .bf16) (h2 : a2.IsWhole) (a3 : Memref sig .tc .vmem S256x4096 .bf16) (h3 : a3.IsWhole) (a4 : Memref sig .tc .vmem S256x4096 .bf16) (h4 : a4.IsWhole) (a5 : Memref sig .tc .vmem S4096x256 .bf16) (h5 : a5.IsWhole) (a6 : Memref sig .tc .vmem S512x4096 .f32) (h6 : a6.IsWhole) (a7 : Memref sig .tc .vmem S512x4096 .f32) (h7 : a7.IsWhole) (hc0 : ¬cond0_0 i) (hc1 : cond0_1 i)
    (x0 : Vec F S512x4096 .bf16) (x1 : Vec F S256x4096 .bf16) (x2 : Vec F S256x4096 .bf16) (x3 : Vec F S4096x256 .bf16) (acc : Vec F S512x4096 .f32) :
    out0_C_4 c i a2 h2 a3 h3 a4 h4 a5 h5 a6 h6 a7 h7 hc0 hc1 x0 x1 x2 x3 acc = k0_pay2 x0 x1 x2 x3 acc := by
  unfold out0_C_4
  rw [View.read_writes_eq_canon _ _ _ (cover0_C_4 c i a2 h2 a3 h3 a4 h4 a5 h5 a6 h6 a7 h7 hc0 hc1 x0 x1 x2 x3 acc)]
  unfold kernelRun0_C
  dsimp only
  sl_unfold_words
  rw [View.canon_unit_zero hz, View.readCov_unit_zero (S := S512x4096) _ hz]
  simp only [View.readAt_eq_ld, h2.read_unread, h3.read_unread, h4.read_unread, h5.read_unread, h7.read_unread,
    View.ld_unit_zero (S := S512x4096) hz, View.ld_unit_zero (S := S256x4096) hz, View.ld_unit_zero (S := S4096x256) hz]

end Cert.KernelIdeal.Tile
end
-- ==== Proof.TileValue.lean ====
import proofs.«161062_j71528385347979_1_alg».proof.Proof.Gen.KernelIdeal.Skeleton
import proofs.«161062_j71528385347979_1_alg».proof.Proof.SwigluSum
import Idealize.ShloMosaic.Lib.Pipeline.Value
import Idealize.ShloMosaic.Lib.ValueIdx
import Idealize.ShloMosaic.PureOps.Ideal.Laws

noncomputable section

open Idealize.ShloMosaic Idealize.ShloMosaic.ValueIdx

/-! ## One grid step's payload, read at an index over the extended reals

  With `x` a block of 512 token rows, `wg`, `wu` tiles of 256 gate and up weight rows and `wd` the matching 256
  columns of the down weight, the stored block at row `p`, output feature `h` is
    `acc[p,h] + ∑ j, ((g j · σ(g j)) · u j) · wd[h,j]`,  `g j = ∑ d, x[p,d]·wg[j,d]`,  `u j = ∑ d, x[p,d]·wu[j,d]`:
  each matrix product into a zero accumulator is a plain sum over its contracted axis, a change of float format is
  the identity, and the elementwise operations act entry by entry. -/

namespace Cert.KernelIdeal.TileValue
open Cert.KernelIdeal Cert.KernelIdeal.Gen

/-! ### The two products' operand indices: both contract the last axis of both operands -/

theorem up_lhs_0 (i : S512x256.Idx) (q : dot_S512x4096_S256x4096_S512x256_1_1_0_0_n_n.contr.Idx) :
    (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
theorem up_lhs_1 (i : S512x256.Idx) (q : dot_S512x4096_S256x4096_S512x256_1_1_0_0_n_n.contr.Idx) :
    (dot_S512x4096_S256x4096_S512x256_1_1_0_0_n_n.lhsIdx i q 1).val = (q ⟨0, by decide⟩).val :=
  dot_S512x4096_S256x4096_S512x256_1_1_0_0_n_n.lhsIdx_val_of_single rfl i q
theorem up_rhs_0 (i : S512x256.Idx) (q : dot_S512x4096_S256x4096_S512x256_1_1_0_0_n_n.contr.Idx) :
    (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl
theorem up_rhs_1 (i : S512x256.Idx) (q : dot_S512x4096_S256x4096_S512x256_1_1_0_0_n_n.contr.Idx) :
    (dot_S512x4096_S256x4096_S512x256_1_1_0_0_n_n.rhsIdx i q 1).val = (q ⟨0, by decide⟩).val :=
  dot_S512x4096_S256x4096_S512x256_1_1_0_0_n_n.rhsIdx_val_of_single rfl i q

theorem down_lhs_0 (i : S512x4096.Idx) (q : dot_S512x256_S4096x256_S512x4096_1_1_0_0_n_n.contr.Idx) :
    (dot_S512x256_S4096x256_S512x4096_1_1_0_0_n_n.lhsIdx i q 0).val = (i 0).val := by
  unfold DotDims.lhsIdx
  rw [dif_neg (show ¬(0 : Fin S512x256.rank) ∈ dot_S512x256_S4096x256_S512x4096_1_1_0_0_n_n.lhsBatch by decide), dif_pos (show (0 : Fin S512x256.rank) ∈ dot_S512x256_S4096x256_S512x4096_1_1_0_0_n_n.lhsNonContracting by decide)]
  rfl
theorem down_lhs_1 (i : S512x4096.Idx) (q : dot_S512x256_S4096x256_S512x4096_1_1_0_0_n_n.contr.Idx) :
    (dot_S512x256_S4096x256_S512x4096_1_1_0_0_n_n.lhsIdx i q 1).val = (q ⟨0, by decide⟩).val :=
  dot_S512x256_S4096x256_S512x4096_1_1_0_0_n_n.lhsIdx_val_of_single rfl i q
theorem down_rhs_0 (i : S512x4096.Idx) (q : dot_S512x256_S4096x256_S512x4096_1_1_0_0_n_n.contr.Idx) :
    (dot_S512x256_S4096x256_S512x4096_1_1_0_0_n_n.rhsIdx i q 0).val = (i 1).val := by
  unfold DotDims.rhsIdx
  rw [dif_neg (show ¬(0 : Fin S4096x256.rank) ∈ dot_S512x256_S4096x256_S512x4096_1_1_0_0_n_n.rhsBatch by decide), dif_pos (show (0 : Fin S4096x256.rank) ∈ dot_S512x256_S4096x256_S512x4096_1_1_0_0_n_n.rhsNonContracting by decide)]
  rfl
theorem down_rhs_1 (i : S512x4096.Idx) (q : dot_S512x256_S4096x256_S512x4096_1_1_0_0_n_n.contr.Idx) :
    (dot_S512x256_S4096x256_S512x4096_1_1_0_0_n_n.rhsIdx i q 1).val = (q ⟨0, by decide⟩).val :=
  dot_S512x256_S4096x256_S512x4096_1_1_0_0_n_n.rhsIdx_val_of_single rfl i q

/-- A block of token rows against a tile of weight rows: entry (p, j) is the dot product of row p with row j. -/
theorem rows_dot_rows (x : FVec Ideal S512x4096 .bf16) (w : FVec Ideal S256x4096 .bf16) (p : Fin 512) (j : Fin 256) :
    matmul dot_S512x4096_S256x4096_S512x256_1_1_0_0_n_n none x w (constant (F := Ideal) S512x256 .f32 0x00000000#32) (ix2 p j)
      = ∑ d : Fin 4096, x (ix2 p d) * w (ix2 j d) := by
  simp only [matmul]
  rw [Ideal.matmul_constant_zero_apply, ← Equiv.sum_comp (contrEquiv1 dot_S512x4096_S256x4096_S512x256_1_1_0_0_n_n 4096 rfl rfl).symm]
  refine Finset.sum_congr rfl fun k _ => ?_
  have hk := contrEquiv1_symm_val dot_S512x4096_S256x4096_S512x256_1_1_0_0_n_n 4096 rfl rfl k
  have el : dot_S512x4096_S256x4096_S512x256_1_1_0_0_n_n.lhsIdx (ix2 p j) ((contrEquiv1 dot_S512x4096_S256x4096_S512x256_1_1_0_0_n_n 4096 rfl rfl).symm k) = ix2 p k := funext fun a => Fin.ext (by
    match a with
    | ⟨0, _⟩ => exact up_lhs_0 _ _
    | ⟨1, _⟩ => exact (up_lhs_1 _ _).trans hk)
  have er : dot_S512x4096_S256x4096_S512x256_1_1_0_0_n_n.rhsIdx (ix2 p j) ((contrEquiv1 dot_S512x4096_S256x4096_S512x256_1_1_0_0_n_n 4096 rfl rfl).symm k) = ix2 j k := funext fun a => Fin.ext (by
    match a with
    | ⟨0, _⟩ => exact up_rhs_0 _ _
    | ⟨1, _⟩ => exact (up_rhs_1 _ _).trans hk)
  rw [el, er]

/-- The hidden block against the down weight's columns: entry (p, h) sums over the tile's 256 features. -/
theorem hidden_dot_cols (y : FVec Ideal S512x256 .bf16) (w : FVec Ideal S4096x256 .bf16) (p : Fin 512) (h : Fin 4096) :
    matmul dot_S512x256_S4096x256_S512x4096_1_1_0_0_n_n none y w (constant (F := Ideal) S512x4096 .f32 0x00000000#32) (ix2 p h)
      = ∑ j : Fin 256, y (ix2 p j) * w (ix2 h j) := by
  simp only [matmul]
  rw [Ideal.matmul_constant_zero_apply, ← Equiv.sum_comp (contrEquiv1 dot_S512x256_S4096x256_S512x4096_1_1_0_0_n_n 256 rfl rfl).symm]
  refine Finset.sum_congr rfl fun k _ => ?_
  have hk := contrEquiv1_symm_val dot_S512x256_S4096x256_S512x4096_1_1_0_0_n_n 256 rfl rfl k
  have el : dot_S512x256_S4096x256_S512x4096_1_1_0_0_n_n.lhsIdx (ix2 p h) ((contrEquiv1 dot_S512x256_S4096x256_S512x4096_1_1_0_0_n_n 256 rfl rfl).symm k) = ix2 p k := funext fun a => Fin.ext (by
    match a with
    | ⟨0, _⟩ => exact down_lhs_0 _ _
    | ⟨1, _⟩ => exact (down_lhs_1 _ _).trans hk)
  have er : dot_S512x256_S4096x256_S512x4096_1_1_0_0_n_n.rhsIdx (ix2 p h) ((contrEquiv1 dot_S512x256_S4096x256_S512x4096_1_1_0_0_n_n 256 rfl rfl).symm k) = ix2 h k := funext fun a => Fin.ext (by
    match a with
    | ⟨0, _⟩ => exact down_rhs_0 _ _
    | ⟨1, _⟩ => exact (down_rhs_1 _ _).trans hk)
  rw [el, er]

/-- The stored block at (p, h). -/
theorem step_apply (x : Vec Ideal S512x4096 .bf16) (wg wu : Vec Ideal S256x4096 .bf16) (wd : Vec Ideal S4096x256 .bf16)
    (acc : Vec Ideal S512x4096 .f32) (p : Fin 512) (h : Fin 4096) :
    k0_pay2 x wg wu wd acc (ix2 p h) = acc (ix2 p h) + ∑ j : Fin 256,
      (((∑ d : Fin 4096, x (ix2 p d) * wg (ix2 j d)) * Ideal.logistic (∑ d : Fin 4096, x (ix2 p d) * wg (ix2 j d)))
        * (∑ d : Fin 4096, x (ix2 p d) * wu (ix2 j d))) * wd (ix2 h j) := by
  unfold k0_pay2
  simp only [shapeCast_self]
  refine (addf_apply _ _ _).trans ?_
  refine congrArg (acc (ix2 p h) + ·) ?_
  refine (hidden_dot_cols _ wd p h).trans ?_
  refine Finset.sum_congr rfl fun j _ => ?_
  refine congrArg (· * wd (ix2 h j)) ?_
  show (matmul dot_S512x4096_S256x4096_S512x256_1_1_0_0_n_n none x wg (constant (F := Ideal) S512x256 .f32 0x00000000#32) (ix2 p j)
      * Ideal.logistic (matmul dot_S512x4096_S256x4096_S512x256_1_1_0_0_n_n none x wg (constant (F := Ideal) S512x256 .f32 0x00000000#32) (ix2 p j)))
      * matmul dot_S512x4096_S256x4096_S512x256_1_1_0_0_n_n none x wu (constant (F := Ideal) S512x256 .f32 0x00000000#32) (ix2 p j) = _
  rw [rows_dot_rows, rows_dot_rows]

/-- The zero block the first tile starts from. -/
theorem zero_apply (i : S512x4096.Idx) : k0_pay1 (F := Ideal) i = 0 := by
  unfold k0_pay1
  simp only [shapeCast_self]
  exact Ideal.ofBits_zero_f32

end Cert.KernelIdeal.TileValue
end
-- ==== Proof.KernelValue.lean ====
import proofs.«161062_j71528385347979_1_alg».proof.Proof.Gen.KernelIdeal.Value
import proofs.«161062_j71528385347979_1_alg».proof.Proof.KernelPieces
import proofs.«161062_j71528385347979_1_alg».proof.Proof.TileValue
import proofs.«161062_j71528385347979_1_alg».proof.Proof.SwigluSum
import Idealize.ShloMosaic.Lib.Pipeline.Value
import Idealize.ShloMosaic.Lib.StableHlo.Run
import Idealize.ShloMosaic.Lib.Tactic
import Idealize.ShloMosaic.Lib.ValueIdx

noncomputable section

open Idealize.ShloMosaic Idealize.ShloMosaic.TcCoe Idealize.SL.Sem Idealize.ShloMosaic.ValueIdx
open Idealize.ShloMosaic.Pipeline (Dat)

/-! ## The kernel's result array over the extended reals

  The grid is 16 row blocks × 43 tiles, visited row block by row block: point `t` works on token rows
  `512·(t / 43) …` and on intermediate features `256·(t % 43) …`. Within a row block the accumulator after the
  tile `t % 43` holds the running total of the down projection over the first `t % 43 + 1` tiles (`acc_eq`, by
  induction on the point); the last tile's step also writes that total to the output block, which by then is the
  whole sum over the 11008 features. The 16 output blocks tile the result array. -/

namespace Cert.KernelIdeal.RunValue
open Cert.KernelIdeal Cert.KernelIdeal.Gen Cert.Swiglu

variable (m : (ℓ : Loc nD τ sig) → Buf (Elt Ideal) ℓ) (ρ : Dev nD → PrngReg)

/-- The four argument arrays as launched. -/
abbrev aX (c : Dev nD) : SX.Idx → EReal := m ((c : Thread nD τ).loc main_arg0)
abbrev aWg (c : Dev nD) : SW.Idx → EReal := m ((c : Thread nD τ).loc main_arg1)
abbrev aWu (c : Dev nD) : SW.Idx → EReal := m ((c : Thread nD τ).loc main_arg2)
abbrev aWd (c : Dev nD) : SD.Idx → EReal := m ((c : Thread nD τ).loc main_arg3)

/-- The blocks the body finds at point `t`: token rows, gate rows, up rows, down columns. -/
abbrev xblk (c : Dev nD) (t : Fin cfg0.N) : Vec Ideal S512x4096 .bf16 := iblk m c 0 t
abbrev gblk (c : Dev nD) (t : Fin cfg0.N) : Vec Ideal S256x4096 .bf16 := iblk m c 1 t
abbrev ublk (c : Dev nD) (t : Fin cfg0.N) : Vec Ideal S256x4096 .bf16 := iblk m c 2 t
abbrev dblk (c : Dev nD) (t : Fin cfg0.N) : Vec Ideal S4096x256 .bf16 := iblk m c 3 t

/-! ### The arrays the pipeline reads: the arguments narrowed to bf16, which over the extended reals changes nothing -/

theorem V_x (c : Dev nD) : (V m c main_v0 : S8192x4096.Idx → EReal) = aX m c := by
  dsimp only [V, hostOps0]; after_results; rfl
theorem V_g (c : Dev nD) : (V m c main_v1 : S11008x4096.Idx → EReal) = aWg m c := by
  dsimp only [V, hostOps0]; after_results; rfl
theorem V_u (c : Dev nD) : (V m c main_v2 : S11008x4096.Idx → EReal) = aWu m c := by
  dsimp only [V, hostOps0]; after_results; rfl
theorem V_d (c : Dev nD) : (V m c main_v3 : S4096x11008.Idx → EReal) = aWd m c := by
  dsimp only [V, hostOps0]; after_results; rfl

/-- Which block of each array point `t` works on. -/
theorem idx_facts : ∀ t : Fin cfg0.N,
    win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = t.val % 43 ∧ win0_2.index t (1 : Fin 2) = 0
    ∧ win0_3.index t (0 : Fin 2) = 0 ∧ win0_3.index t (1 : Fin 2) = t.val % 43
    ∧ win0_4.index t (0 : Fin 2) = t.val / 43 ∧ win0_4.index t (1 : Fin 2) = 0 :=
  (by decide +kernel : ∀ t : Fin grid0.N, _)

theorem xblk_apply (c : Dev nD) (t : Fin cfg0.N) (p : Fin 512) (d : Fin 4096) :
    xblk m c t (ix2 p d) = aX m c (ix2 (tok (512 * (t.val / 43) + p.val)) d) := by
  obtain ⟨e0, e1, -⟩ := idx_facts t
  have hN : t.val < 688 := lt_of_lt_of_eq t.isLt (show cfg0.N = 688 from N_0)
  have hp := p.isLt
  show V m c main_v0 (((cfg0.win 0).blk t).view.emb (ix2 p d)) = _
  rw [V_x]
  refine congrArg (aX m c) ?_
  funext a; apply Fin.ext
  match a with
  | ⟨0, _⟩ => show win0_0.index t (0 : Fin 2) * 512 + 1 * p.val = (512 * (t.val / 43) + p.val) % 8192; omega
  | ⟨1, _⟩ => show win0_0.index t (1 : Fin 2) * 4096 + 1 * d.val = d.val; omega

theorem gblk_apply (c : Dev nD) (t : Fin cfg0.N) (j : Fin 256) (d : Fin 4096) :
    gblk m c t (ix2 j d) = aWg m c (ix2 (mid (256 * (t.val % 43) + j.val)) d) := by
  obtain ⟨-, -, e0, e1, -⟩ := idx_facts t
  have hj := j.isLt
  show V m c main_v1 (((cfg0.win 1).blk t).view.emb (ix2 j d)) = _
  rw [V_g]
  refine congrArg (aWg m c) ?_
  funext a; apply Fin.ext
  match a with
  | ⟨0, _⟩ => show win0_1.index t (0 : Fin 2) * 256 + 1 * j.val = (256 * (t.val % 43) + j.val) % 11008; omega
  | ⟨1, _⟩ => show win0_1.index t (1 : Fin 2) * 4096 + 1 * d.val = d.val; omega

theorem ublk_apply (c : Dev nD) (t : Fin cfg0.N) (j : Fin 256) (d : Fin 4096) :
    ublk m c t (ix2 j d) = aWu m c (ix2 (mid (256 * (t.val % 43) + j.val)) d) := by
  obtain ⟨-, -, -, -, e0, e1, -⟩ := idx_facts t
  have hj := j.isLt
  show V m c main_v2 (((cfg0.win 2).blk t).view.emb (ix2 j d)) = _
  rw [V_u]
  refine congrArg (aWu m c) ?_
  funext a; apply Fin.ext
  match a with
  | ⟨0, _⟩ => show win0_2.index t (0 : Fin 2) * 256 + 1 * j.val = (256 * (t.val % 43) + j.val) % 11008; omega
  | ⟨1, _⟩ => show win0_2.index t (1 : Fin 2) * 4096 + 1 * d.val = d.val; omega

theorem dblk_apply (c : Dev nD) (t : Fin cfg0.N) (h : Fin 4096) (j : Fin 256) :
    dblk m c t (ix2 h j) = aWd m c (ix2 h (mid (256 * (t.val % 43) + j.val))) := by
  obtain ⟨-, -, -, -, -, -, e0, e1, -⟩ := idx_facts t
  have hj := j.isLt
  show V m c main_v3 (((cfg0.win 3).blk t).view.emb (ix2 h j)) = _
  rw [V_d]
  refine congrArg (aWd m c) ?_
  funext a; apply Fin.ext
  match a with
  | ⟨0, _⟩ => show win0_3.index t (0 : Fin 2) * 4096 + 1 * h.val = h.val; omega
  | ⟨1, _⟩ => show win0_3.index t (1 : Fin 2) * 256 + 1 * j.val = (256 * (t.val % 43) + j.val) % 11008; omega

/-- One step at point `t`: the stored block is the block before plus tile `t % 43` of the row block's rows. -/
theorem step_at (c : Dev nD) (t : Fin cfg0.N) (acc : Vec Ideal S512x4096 .f32) (p : Fin 512) (h : Fin 4096) :
    k0_pay2 (xblk m c t) (gblk m c t) (ublk m c t) (dblk m c t) acc (ix2 p h)
      = acc (ix2 p h) + tile (aX m c) (aWg m c) (aWu m c) (aWd m c) (tok (512 * (t.val / 43) + p.val)) h (t.val % 43) := by
  rw [TileValue.step_apply]
  refine congrArg (acc (ix2 p h) + ·) ?_
  unfold tile summand gated proj
  refine Finset.sum_congr rfl fun j _ => ?_
  simp only [xblk_apply, gblk_apply, ublk_apply, dblk_apply]

/-! ### The accumulator point by point -/

theorem acc_first (c : Dev nD) (t : Fin cfg0.N) (h0 : t.val % 43 = 0) (h1 : ¬t.val % 43 = 42) :
    (outsAt0 m c t.val t.isLt).2 = k0_pay2 (xblk m c t) (gblk m c t) (ublk m c t) (dblk m c t) (k0_pay1 (F := Ideal)) := by
  rw [outsAt0_A m c t h0 h1]
  dsimp only
  exact Tile.scratch_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

theorem acc_next (c : Dev nD) (t : Fin cfg0.N) (h0 : ¬t.val % 43 = 0) :
    (outsAt0 m c t.val t.isLt).2 = k0_pay2 (xblk m c t) (gblk m c t) (ublk m c t) (dblk m c t)
      (outsAt0 m c (t.val - 1) (Nat.lt_of_le_of_lt (Nat.sub_le _ _) t.isLt)).2 := by
  by_cases h1 : t.val % 43 = 42
  · rw [outsAt0_C m c t h0 h1]
    dsimp only
    exact Tile.scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact Tile.scratch_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- At a row block's last tile the output block receives what the accumulator is left holding. -/
theorem out_last (c : Dev nD) (t : Fin cfg0.N) (h0 : ¬t.val % 43 = 0) (h1 : t.val % 43 = 42) :
    (outsAt0 m c t.val t.isLt).1 = (outsAt0 m c t.val t.isLt).2 := by
  rw [outsAt0_C m c t h0 h1]
  dsimp only
  exact (Tile.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).trans
    (Tile.scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).symm

/-- THE RUNNING TOTAL: after point `n` the accumulator at (p, h) is the down projection of token row
    `512·(n / 43) + p` summed over the first `n % 43 + 1` tiles. -/
theorem acc_eq (c : Dev nD) : ∀ (n : ℕ) (hn : n < cfg0.N) (p : Fin 512) (h : Fin 4096),
    (outsAt0 m c n hn).2 (ix2 p h)
      = upto (aX m c) (aWg m c) (aWu m c) (aWd m c) (tok (512 * (n / 43) + p.val)) h (n % 43 + 1) := by
  intro n
  induction n with
  | zero =>
    intro hn p h
    refine (congrFun (acc_first m c ⟨0, hn⟩ rfl (by dsimp only; omega)) (ix2 p h)).trans ?_
    rw [step_at, TileValue.zero_apply, zero_add]
    show tile _ _ _ _ (tok (512 * (0 / 43) + p.val)) h (0 % 43) = _
    rw [upto_succ, upto_zero, zero_add]
  | succ n ih =>
    intro hn p h
    have hN : n + 1 < 688 := lt_of_lt_of_eq hn (show cfg0.N = 688 from N_0)
    by_cases h0 : (n + 1) % 43 = 0
    · refine (congrFun (acc_first m c ⟨n + 1, hn⟩ h0 (by dsimp only; omega)) (ix2 p h)).trans ?_
      rw [step_at, TileValue.zero_apply, zero_add]
      show tile _ _ _ _ (tok (512 * ((n + 1) / 43) + p.val)) h ((n + 1) % 43) = _
      rw [h0, upto_succ, upto_zero, zero_add]
    · refine (congrFun (acc_next m c ⟨n + 1, hn⟩ h0) (ix2 p h)).trans ?_
      rw [step_at]
      have e1 : (n + 1) / 43 = n / 43 := by omega
      have e2 : (n + 1) % 43 = n % 43 + 1 := by omega
      show (outsAt0 m c n (Nat.lt_of_succ_lt hn)).2 (ix2 p h) + tile _ _ _ _ (tok (512 * ((n + 1) / 43) + p.val)) h ((n + 1) % 43) = _
      rw [ih (Nat.lt_of_succ_lt hn) p h, e1, e2]
      exact (upto_succ _ _ _ _ _ _ _).symm

/-! ### The result array -/

/-- What the result array ends holding: the layer's output of the launched arguments. -/
abbrev result (c : Dev nD) : Buf (Elt Ideal) ((c : Thread nD τ).loc main_v4) :=
  out (aX m c) (aWg m c) (aWu m c) (aWd m c)

/-- At a row block's last tile the output block holds that row block's slice of the layer's output. -/
theorem out_eq (c : Dev nD) (t : Fin cfg0.N) (h0 : ¬t.val % 43 = 0) (h1 : t.val % 43 = 42) (p : Fin 512) (h : Fin 4096) :
    (outsAt0 m c t.val t.isLt).1 (ix2 p h) = result m c (ix2 (tok (512 * (t.val / 43) + p.val)) h) := by
  rw [out_last m c t h0 h1, acc_eq m c t.val t.isLt p h, h1]
  exact upto_full _ _ _ _ _ _

theorem flushed_eq (c : Dev nD) (t : Fin cfg0.N) (hf : (cfg0.win 4).flush t = true) :
    (dats m 0 c).flushed 4 t = ((cfg0.win 4).blk t).view.read (Elt Ideal) (result m c) := by
  have h1 : t.val % 43 = 42 := (flush0_4 t).mp hf
  have h0 : ¬t.val % 43 = 0 := by omega
  have hN : t.val < 688 := lt_of_lt_of_eq t.isLt (show cfg0.N = 688 from N_0)
  obtain ⟨-, -, -, -, -, -, -, -, e0, e1⟩ := idx_facts t
  rw [Value.flushed4]
  funext y
  show (outsAt0 m c t.val t.isLt).1 y = result m c (((cfg0.win 4).blk t).view.emb y)
  have hy0 : (y 0).val < 512 := (y 0).isLt
  rw [show (outsAt0 m c t.val t.isLt).1 y = (outsAt0 m c t.val t.isLt).1 (ix2 (y 0) (y 1)) from congrArg _ (eq_ix2 y)]
  rw [out_eq m c t h0 h1 (y 0) (y 1)]
  refine congrArg (result m c) ?_
  funext a; apply Fin.ext
  match a with
  | ⟨0, _⟩ => show (512 * (t.val / 43) + (y 0).val) % 8192 = win0_4.index t (0 : Fin 2) * 512 + 1 * (y 0).val; omega
  | ⟨1, _⟩ => show (y 1).val = win0_4.index t (1 : Fin 2) * 4096 + 1 * (y 1).val; omega

/-- An index of the result array is in point `t`'s block iff each coordinate is in the block's range on its axis. -/
theorem mem_blk (t : Fin cfg0.N) (i : S8192x4096.Idx) :
    i ∈ ((cfg0.win 4).blk t).view.set ↔ ∀ a : Fin 2, win0_4.index t a * S512x4096.size a ≤ (i a).val ∧ (i a).val < win0_4.index t a * S512x4096.size a + S512x4096.size a := by
  show i ∈ ((View.whole main_v4).slice (win0_4.rect t)).set ↔ _
  rw [View.set_slice_whole, Rect.mem_set_unit]
  exact Iff.rfl

/-- Row `r` of the result lies in the block written at the last tile of row block `r / 512`. -/
theorem cover (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hlt : 43 * ((i 0).val / 512) + 42 < cfg0.N := by rw [show cfg0.N = 688 from N_0]; omega
  refine ⟨⟨43 * ((i 0).val / 512) + 42, hlt⟩, (flush0_4 _).mpr (by dsimp only; omega), ?_⟩
  obtain ⟨-, -, -, -, -, -, -, -, e0, e1⟩ := idx_facts ⟨43 * ((i 0).val / 512) + 42, hlt⟩
  rw [mem_blk]
  intro a
  match a with
  | ⟨0, _⟩ =>
    show win0_4.index _ (0 : Fin 2) * 512 ≤ (i 0).val ∧ (i 0).val < win0_4.index _ (0 : Fin 2) * 512 + 512
    rw [e0]; dsimp only; omega
  | ⟨1, _⟩ =>
    show win0_4.index _ (1 : Fin 2) * 4096 ≤ (i 1).val ∧ (i 1).val < win0_4.index _ (1 : Fin 2) * 4096 + 4096
    rw [e1]; omega

theorem final (c : Dev nD) : (dats m 0 c).arrAt 4 cfg0.N = result m c :=
  (dats m 0 c).arrAt_eq_of_cover 4 (result m c) (flushed_eq m c) cover

/-- The run, read: the result array at the layer's output of the launched arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.RunValue
end
-- ==== Proof.ReferenceValue.lean ====
import proofs.«161062_j71528385347979_1_alg».proof.Proof.Gen.ReferenceIdeal.Read
import proofs.«161062_j71528385347979_1_alg».proof.Proof.SwigluSum
import Idealize.ShloMosaic.Lib.IdealHost
import Idealize.ShloMosaic.Lib.ValueIdx
import Idealize.ShloMosaic.PureOps.Ideal.Laws

noncomputable section

open Idealize.ShloMosaic Idealize.ShloMosaic.ValueIdx

/-! ## The reference's result over the extended reals

  The reference transposes each weight and contracts it against the activations, spells the logistic function as
  `1 / (1 + e^(-g))` with the constant one written twice, multiplies, and contracts once more with the transposed
  down weight. Read at an index each transpose swaps the two coordinates back, each contraction is a plain sum, and
  the spelled-out quotient is the logistic function: the result is the layer's output, entry by entry. -/

namespace Cert.ReferenceIdeal.RefValue
open Cert.ReferenceIdeal Cert.ReferenceIdeal.Read Cert.Swiglu

/-- A projection as the reference computes it: the activations against a transposed weight. -/
theorem gate_eq (x0 : SX.Idx → EReal) (x1 : SW.Idx → EReal) (r : Fin 8192) (n : Fin 11008) :
    val_main_v1 (F := Ideal) x0 x1 (ix2 r n) = proj x0 x1 r n := by
  rw [val_main_v1_apply]
  unfold proj
  refine Finset.sum_congr rfl fun d _ => ?_
  rw [val_main_v0_apply]
  rw [show lidx_main_v1 (ix2 r n) d = ix2 r d from funext fun a => Fin.ext (by match a with | ⟨0, _⟩ => rfl | ⟨1, _⟩ => rfl),
    show idx_main_v0 (ridx_main_v1 (ix2 r n) d) = ix2 n d from funext fun a => Fin.ext (by match a with | ⟨0, _⟩ => rfl | ⟨1, _⟩ => rfl)]

theorem up_eq (x0 : SX.Idx → EReal) (x2 : SW.Idx → EReal) (r : Fin 8192) (n : Fin 11008) :
    val_main_v3 (F := Ideal) x0 x2 (ix2 r n) = proj x0 x2 r n := by
  rw [val_main_v3_apply]
  unfold proj
  refine Finset.sum_congr rfl fun d _ => ?_
  rw [val_main_v2_apply]
  rw [show lidx_main_v3 (ix2 r n) d = ix2 r d from funext fun a => Fin.ext (by match a with | ⟨0, _⟩ => rfl | ⟨1, _⟩ => rfl),
    show idx_main_v2 (ridx_main_v3 (ix2 r n) d) = ix2 n d from funext fun a => Fin.ext (by match a with | ⟨0, _⟩ => rfl | ⟨1, _⟩ => rfl)]

/-- The gated hidden activation as the reference computes it. -/
theorem hidden_eq (x0 : SX.Idx → EReal) (x1 x2 : SW.Idx → EReal) (r : Fin 8192) (n : Fin 11008) :
    val_main_v5 (F := Ideal) x0 x1 x2 (ix2 r n) = gated x0 x1 x2 r n := by
  rw [val_main_v5_apply, val_main_v4_apply, val_main_call0_v5_apply, val_main_call0_v4_apply, val_main_call0_cst_0_apply,
    val_main_call0_v3_apply, val_main_call0_v2_apply, val_main_call0_cst_apply, val_main_call0_v1_apply,
    val_main_call0_v0_apply, gate_eq, up_eq]
  unfold gated Ideal.logistic
  show proj x0 x1 r n * Ideal.div (Ideal.ofBits .f32 0x3F800000#32) (Ideal.ofBits .f32 0x3F800000#32 + Ideal.exp (-proj x0 x1 r n))
      * proj x0 x2 r n = _
  rw [Ideal.ofBits_one_f32]

/-- The reference's result is the layer's output. -/
theorem result_eq (x0 : SX.Idx → EReal) (x1 x2 : SW.Idx → EReal) (x3 : SD.Idx → EReal) :
    val_main_v7 (F := Ideal) x0 x1 x2 x3 = out x0 x1 x2 x3 := by
  funext i
  obtain ⟨r, h, rfl⟩ : ∃ (r : Fin 8192) (h : Fin 4096), i = ix2 r h := ⟨i 0, i 1, eq_ix2 i⟩
  rw [val_main_v7_apply]
  unfold out summand
  refine Finset.sum_congr rfl fun n _ => ?_
  rw [val_main_v6_apply]
  rw [show lidx_main_v7 (ix2 r h) n = ix2 r n from funext fun a => Fin.ext (by match a with | ⟨0, _⟩ => rfl | ⟨1, _⟩ => rfl),
    show idx_main_v6 (ridx_main_v7 (ix2 r h) n) = ix2 h n from funext fun a => Fin.ext (by match a with | ⟨0, _⟩ => rfl | ⟨1, _⟩ => rfl)]
  rw [hidden_eq]

end Cert.ReferenceIdeal.RefValue
end
-- ==== Proof.lean ====
/- The gated feed-forward kernel against its jnp reference, over the extended reals.

   Both programs compute, for token row r and output feature h,
     out r h = ∑ n, ((g n · σ(g n)) · u n) · Wd[h,n],   g n = ∑ d, X[r,d]·Wg[n,d],   u n = ∑ d, X[r,d]·Wu[n,d],
   with σ the logistic function and n over the 11008 intermediate features (Proof/SwigluSum.lean).
   The reference does so with three whole contractions (Proof/ReferenceValue.lean). The kernel walks a grid of
   16 row blocks × 43 tiles of 256 features, adding each tile's share of the last sum to an accumulator that it
   zeroes at a row block's first tile and copies to the output block at its last (Proof/KernelPieces.lean: what one
   step stores; Proof/TileValue.lean: that store read entry by entry; Proof/KernelValue.lean: the running total by
   induction on the grid point, and the result array from its 16 blocks). Narrowing the inputs to bf16 is the
   identity over the extended reals, and regrouping the last sum into tiles uses only that addition there is
   commutative and associative — so the precondition (finite inputs) is never opened.

   The three frames: the two kernels' are the generated frame certificates; the reference's is its generated run
   with the result dropped. The idealization rewrote nothing, so its preservation claim is `True`. -/
import proofs.«161062_j71528385347979_1_alg».proof.Defs
import proofs.«161062_j71528385347979_1_alg».proof.Proof.Gen.Kernel
import proofs.«161062_j71528385347979_1_alg».proof.Proof.Gen.Kernel.Skeleton
import proofs.«161062_j71528385347979_1_alg».proof.Proof.Gen.Kernel.Launch
import proofs.«161062_j71528385347979_1_alg».proof.Proof.Gen.Kernel.Points
import proofs.«161062_j71528385347979_1_alg».proof.Proof.Gen.Kernel.Frame
import proofs.«161062_j71528385347979_1_alg».proof.Proof.Gen.KernelIdeal
import proofs.«161062_j71528385347979_1_alg».proof.Proof.Gen.KernelIdeal.Skeleton
import proofs.«161062_j71528385347979_1_alg».proof.Proof.Gen.KernelIdeal.Launch
import proofs.«161062_j71528385347979_1_alg».proof.Proof.Gen.KernelIdeal.Points
import proofs.«161062_j71528385347979_1_alg».proof.Proof.Gen.KernelIdeal.Frame
import proofs.«161062_j71528385347979_1_alg».proof.Proof.Gen.ReferenceIdeal
import proofs.«161062_j71528385347979_1_alg».proof.Proof.Gen.Pre_finite_inputs
import proofs.«161062_j71528385347979_1_alg».proof.Proof.Gen.KernelIdeal.Value
import proofs.«161062_j71528385347979_1_alg».proof.Proof.Gen.ReferenceIdeal.Run
import proofs.«161062_j71528385347979_1_alg».proof.Proof.Gen.ReferenceIdeal.Read
import proofs.«161062_j71528385347979_1_alg».proof.Proof.KernelValue
import proofs.«161062_j71528385347979_1_alg».proof.Proof.ReferenceValue
import Idealize.ShloMosaic.Adequacy
import Idealize.ShloMosaic.Init

noncomputable section

namespace Cert.Proof

open Idealize.ShloMosaic Idealize.SL.Sem Cert.Kernel

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both idealized programs end with the layer's output of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
